-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x1x64 : Shape := ⟨4, ![32, 8192, 1, 64]⟩
abbrev S_ : Shape := ⟨0, ![]⟩

class Facts : Prop where
  bcast_S_S32x8192x1x64 : S_.BroadcastsInDim S32x8192x1x64 (![] : Fin 0 → Fin S32x8192x1x64.rank)
  reducesTo_S32x8192x1x64_S_d0_1_2_3 : S32x8192x1x64.ReducesTo [0, 1, 2, 3] S_
  h_S_ : 0 < S_.numel

variable [Facts]

def fn {F : FTy → Type} [FloatOps F] (main_arg0 : FVec F S32x8192x1x64 .f32) : IVec S_ 1 :=
  let main_v0 : FVec F S32x8192x1x64 .f32 := Host.absf main_arg0
  let main_cst : FVec F S_ .f32 := constant S_ .f32 0x7F800000#32
  let main_v1 : FVec F S32x8192x1x64 .f32 := broadcastInDim S32x8192x1x64 ![] bcast_S_S32x8192x1x64 main_cst
  let main_v2 : IVec S32x8192x1x64 1 := cmpf .olt main_v0 main_v1
  let main_c : IVec S_ 1 := constantI S_ 1 1#1
  let main_v3 : IVec S_ 1 := (fun x v => Host.reduce IntOp.andi x v reducesTo_S32x8192x1x64_S_d0_1_2_3 h_S_) main_v2 main_c
  main_v3
-- ==== Kernel.lean ====
abbrev S32x8192x1x64 : Shape := ⟨4, ![32, 8192, 1, 64]⟩
abbrev S32x8192x64 : Shape := ⟨3, ![32, 8192, 64]⟩
abbrev S8192x4096 : Shape := ⟨2, ![8192, 4096]⟩
abbrev S32x128x64 : Shape := ⟨3, ![32, 128, 64]⟩
abbrev S128x4096 : Shape := ⟨2, ![128, 4096]⟩
abbrev S128x64 : Shape := ⟨2, ![128, 64]⟩
abbrev S128x64x1 : Shape := ⟨3, ![128, 64, 1]⟩
abbrev S128x64x64 : Shape := ⟨3, ![128, 64, 64]⟩
abbrev S128x1x64 : Shape := ⟨3, ![128, 1, 64]⟩

abbrev nBuf : Space → Nat
  | .hbm => 3
  | .vmem => 4
  | .smem => 0
  | _ => 0

abbrev bufTy : (tb : Table) → Fin (tcTables nBuf tb) → BufTy
  | .hbm, ⟨0, _⟩ => ⟨S32x8192x1x64, .f32⟩
  | .hbm, ⟨1, _⟩ => ⟨S32x8192x64, .f32⟩
  | .hbm, ⟨2, _⟩ => ⟨S8192x4096, .f32⟩
  | .local _ .vmem, ⟨0, _⟩ => ⟨S32x128x64, .f32⟩
  | .local _ .vmem, ⟨1, _⟩ => ⟨S32x128x64, .f32⟩
  | .local _ .vmem, ⟨2, _⟩ => ⟨S128x4096, .f32⟩
  | .local _ .vmem, ⟨3, _⟩ => ⟨S128x4096, .f32⟩
  | _, _ => ⟨S32x8192x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x8192x1x64_S32x8192x64 : S32x8192x1x64.ShapeCasts S32x8192x64
  inb_S32x128x64_S32x128x64_0_0_0 : ∀ a, (![0, 0, 0] : Fin 3 → Nat) a + S32x128x64.size a ≤ S32x128x64.size a
  h_S32x128x64 : 0 < S32x128x64.numel
  shapeCasts_S32x128x64_S32x128x64 : S32x128x64.ShapeCasts S32x128x64
  reduces_S32x128x64_S128x64 : S32x128x64.Reduces [0] S128x64
  shapeCasts_S128x64_S128x64x1 : S128x64.ShapeCasts S128x64x1
  shapeCasts_S128x64x1_S128x64x1 : S128x64x1.ShapeCasts S128x64x1
  broadcasts_S128x64x1_S128x64x64 : S128x64x1.Broadcasts S128x64x64
  shapeCasts_S128x64_S128x1x64 : S128x64.ShapeCasts S128x1x64
  shapeCasts_S128x1x64_S128x1x64 : S128x1x64.ShapeCasts S128x1x64
  broadcasts_S128x1x64_S128x64x64 : S128x1x64.Broadcasts S128x64x64
  shapeCasts_S128x64x64_S128x4096 : S128x64x64.ShapeCasts S128x4096
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x64.size a ≤ S32x8192x64.size a
  hwx0_0 : ∀ i : grid0.Coords, EltTy.bits .f32 = 32 ∨ (Rect.block (s := S32x8192x64) S32x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)

variable [Facts₀]

abbrev win0_0 : Pipeline.Window sig grid0 :=
  Pipeline.Window.ofSpec (Memref.whole main_v0) S32x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x8192x1x64 : Shape := ⟨4, ![32, 8192, 1, 64]⟩
abbrev S_ : Shape := ⟨0, ![]⟩
abbrev S8192x1x64 : Shape := ⟨3, ![8192, 1, 64]⟩
abbrev S8192x64x64 : Shape := ⟨3, ![8192, 64, 64]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32x8192x1x64, .f32⟩
  | .hbm, ⟨1, _⟩ => ⟨S_, .f32⟩
  | .hbm, ⟨2, _⟩ => ⟨S8192x1x64, .f32⟩
  | .hbm, ⟨3, _⟩ => ⟨S8192x64x64, .f32⟩
  | .hbm, ⟨4, _⟩ => ⟨S8192x4096, .f32⟩
  | _, _ => ⟨S32x8192x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  reducesTo_S32x8192x1x64_S8192x1x64_d0 : S32x8192x1x64.ReducesTo [0] S8192x1x64
  h_S_ : 0 < S_.numel
  shapeCasts_S8192x64x64_S8192x4096 : S8192x64x64.ShapeCasts S8192x4096
  dot_S8192x1x64_S8192x1x64_S8192x64x64_1_1_2_2_0_0_wf : DotDims.WF S8192x1x64 S8192x1x64 S8192x64x64 [1] [1] [2] [2] [0] [0]

variable [Facts₀]

def dot_S8192x1x64_S8192x1x64_S8192x64x64_1_1_2_2_0_0 : DotDims S8192x1x64 S8192x1x64 S8192x64x64 where
  lhsContracting := [1]
  rhsContracting := [1]
  lhsNonContracting := [2]
  rhsNonContracting := [2]
  lhsBatch := [0]
  rhsBatch := [0]
  wf := dot_S8192x1x64_S8192x1x64_S8192x64x64_1_1_2_2_0_0_wf

class Facts : Prop extends Facts₀ where

variable [Facts]
-- ==== Proof.OuterSpec.lean ====
/-
  The layer's mathematics, stated once over literal shapes and over the extended reals, with no program in sight.

  The input holds 32 fields of 8192 samples, each a vector of 64 coordinates (behind a unit axis). Writing
  s[b, d] for the sum over the 32 fields of x[f, b, 0, d], the layer's result is, per sample, the outer product
  of s[b, ·] with itself, laid out flat: column q = 64·d + e of row b holds s[b, d] · s[b, e]. So at a flat
  index (b, q) the two factors are read at d = q / 64 and e = q % 64.
-/
import Idealize.ShloMosaic.PureOps.Ideal
import Idealize.ShloMosaic.PureOps.Ideal.Laws
import Idealize.ShloMosaic.Lib.ValueIdx

noncomputable section

open scoped BigOperators

namespace Cert.OuterProduct

open Idealize.ShloMosaic Idealize.ShloMosaic.ValueIdx

/-- The input's shape: field, sample, a unit axis, coordinate. -/
abbrev Fields : Shape := ⟨4, ![32, 8192, 1, 64]⟩
/-- The result's shape: sample, flattened pair of coordinates. -/
abbrev Flat : Shape := ⟨2, ![8192, 4096]⟩

/-- The input's index of field `f`, sample `b`, coordinate `d` (the unit axis at its one position). -/
abbrev entry (f : Fin 32) (b : Fin 8192) (d : Fin 64) : Fields.Idx := ix4 f b (0 : Fin 1) d

/-- s[b, d]: the sum over the 32 fields. -/
def fieldSum (x : Fields.Idx → EReal) (b : Fin 8192) (d : Fin 64) : EReal :=
  ∑ f : Fin 32, x (entry f b d)

/-- The first factor's coordinate of a flat column: q / 64. -/
def major (q : Fin 4096) : Fin 64 := ⟨q.val / 64, by have := q.isLt; omega⟩
/-- The second factor's coordinate of a flat column: q % 64. -/
def minor (q : Fin 4096) : Fin 64 := ⟨q.val % 64, Nat.mod_lt _ (by decide)⟩

/-- The flattened outer product of the field sums: at (b, q) it is s[b, q / 64] · s[b, q % 64]. -/
def outerFlat (x : Fields.Idx → EReal) : Flat.Idx → EReal := fun i =>
  fieldSum x ⟨(i 0).val, idx2_lt0 i⟩ (major ⟨(i 1).val, idx2_lt1 i⟩)
    * fieldSum x ⟨(i 0).val, idx2_lt0 i⟩ (minor ⟨(i 1).val, idx2_lt1 i⟩)

/-- A sum started from the f32 zero word is the sum: that word is the extended real 0. -/
theorem zero_word_add (a : EReal) : Ideal.ofBits .f32 0x00000000#32 + a = a := by
  rw [Ideal.ofBits_zero_f32, zero_add]

end Cert.OuterProduct

end
-- ==== Proof.RefOuter.lean ====
/-
  The reference computes the flattened outer product of the field sums.

  Read one operation at a time: the host sums the input over its field axis from the zero word (the sum
  itself, zero being the extended real 0); its batched product contracts the unit axis, a sum of ONE
  term, s[b, 0, d] · s[b, 0, e]; the final reshape sends the flat position 4096·b + q back to
  (b, q / 64, q % 64). Position by position that is the specification.
-/
import proofs.«130399_j71545565217479_1_alg».proof.Proof.Gen.ReferenceIdeal.Read
import proofs.«130399_j71545565217479_1_alg».proof.Proof.OuterSpec

noncomputable section

open scoped BigOperators

namespace Cert.ReferenceIdeal.OuterBridge

open Cert.ReferenceIdeal Cert.ReferenceIdeal.Read Cert.OuterProduct
open Idealize.ShloMosaic Idealize.ShloMosaic.ValueIdx

/-- The first factor's operand index, followed back through the reshape, the product and the field sum: field
    `k` of sample `b` at coordinate `q / 64`. -/
theorem left_index (i : S8192x4096.Idx) (k : Fin 32) :
    idx_main_v0 (lidx_main_v1 (idx_main_v2 i) (0 : Fin 1)) k
      = entry k ⟨(i 0).val, idx2_lt0 i⟩ (major ⟨(i 1).val, idx2_lt1 i⟩) := by
  have h0 : (i 0).val < 8192 := idx2_lt0 i
  have h1 : (i 1).val < 4096 := idx2_lt1 i
  funext a
  apply Fin.ext
  match a with
  | ⟨0, _⟩ => rfl
  | ⟨1, _⟩ => show ((i 0).val * 4096 + (i 1).val) / 4096 = (i 0).val; omega
  | ⟨2, _⟩ => rfl
  | ⟨3, _⟩ => show ((i 0).val * 4096 + (i 1).val) / 64 % 64 = (i 1).val / 64; omega

/-- The second factor's operand index: field `k` of sample `b` at coordinate `q % 64`. -/
theorem right_index (i : S8192x4096.Idx) (k : Fin 32) :
    idx_main_v0 (ridx_main_v1 (idx_main_v2 i) (0 : Fin 1)) k
      = entry k ⟨(i 0).val, idx2_lt0 i⟩ (minor ⟨(i 1).val, idx2_lt1 i⟩) := by
  have h0 : (i 0).val < 8192 := idx2_lt0 i
  have h1 : (i 1).val < 4096 := idx2_lt1 i
  funext a
  apply Fin.ext
  match a with
  | ⟨0, _⟩ => rfl
  | ⟨1, _⟩ => show ((i 0).val * 4096 + (i 1).val) / 4096 = (i 0).val; omega
  | ⟨2, _⟩ => rfl
  | ⟨3, _⟩ => show ((i 0).val * 4096 + (i 1).val) % 64 = (i 1).val % 64; omega

/-- The reference's result is the flattened outer product of the field sums. -/
theorem result_is_outer (x : (⟨S32x8192x1x64, .f32⟩ : BufTy).Contents (Elt Ideal)) :
    val_main_v2 (F := Ideal) x = outerFlat x := by
  funext i
  rw [val_main_v2_apply, val_main_v1_apply, Fin.sum_univ_one, val_main_v0_apply, val_main_v0_apply,
    val_main_cst_apply, Ideal.ofBits_def, zero_word_add, zero_word_add]
  simp only [left_index, right_index]
  rfl

end Cert.ReferenceIdeal.OuterBridge

end
-- ==== Proof.KernelOuter.lean ====
/-
  The kernel leaves the flattened outer product of the field sums in its result array.

  The grid has 64 points; point t works on samples 128·t … 128·t + 127. Its input block is the whole field axis
  and the whole coordinate axis of those samples (read from the input with its unit axis dropped), its output
  block rows 128·t … 128·t + 127 of the result, all 4096 columns. Inside a block the body sums over the field
  axis, then multiplies the sum read at column q / 64 by the sum read at column q % 64. So what point t writes
  back is block t of ONE whole-array function, the specification; the 64 row blocks tile the result, hence the
  result ends holding that function.
-/
import proofs.«130399_j71545565217479_1_alg».proof.Proof.Gen.KernelIdeal.Value
import proofs.«130399_j71545565217479_1_alg».proof.Proof.OuterSpec
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.OuterBridge

open Cert.KernelIdeal Cert.KernelIdeal.Gen Cert.KernelIdeal.Value Cert.OuterProduct
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Inside one block -/

/-- The body's reduction over the field axis of a block, read at row `r`, column `d`: the sum over the 32 fields. -/
theorem block_field_sum (B : FVec Ideal S32x128x64 .f32) (q : S128x64.Idx) (r : Fin 128) (d : Fin 64)
    (hr : (q 0).val = r.val) (hd : (q 1).val = d.val) :
    multiReduction .add [0] S128x64 (shapeCast S32x128x64 B shapeCasts_S32x128x64_S32x128x64) 0x00000000#32
        reduces_S32x128x64_S128x64 (.inl rfl) rfl q
      = ∑ k : Fin 32, B (ix3 k r d) := by
  refine (Ideal.multiReduction_add_single _ 0x00000000#32 reduces_S32x128x64_S128x64 (.inl rfl) rfl q).trans ?_
  rw [shapeCast_self]
  refine Finset.sum_congr rfl fun k _ => congrArg B ?_
  funext a
  apply Fin.ext
  match a with
  | ⟨0, _⟩ => rfl
  | ⟨1, _⟩ => exact hr
  | ⟨2, _⟩ => exact hd

/-- A block that holds samples 128·t … 128·t + 127 of the input `x` leaves, at its index `y`, the specification at
    the array index `i` that `y` sits at (row 128·t + y₀, column y₁). -/
theorem block_value (x : Fields.Idx → EReal) (B : FVec Ideal S32x128x64 .f32) (t : Fin 64)
    (hB : ∀ (k : Fin 32) (r : Fin 128) (d : Fin 64),
      B (ix3 k r d) = x (entry k ⟨128 * t.val + r.val, by have := t.isLt; have := r.isLt; omega⟩ d))
    (y : S128x4096.Idx) (i : Flat.Idx) (hi0 : (i 0).val = 128 * t.val + (y 0).val) (hi1 : (i 1).val = (y 1).val) :
    E1 (F := Ideal) B y = outerFlat x i := by
  have hy0 : (y 0).val < 128 := idx2_lt0 y
  have hy1 : (y 1).val < 4096 := idx2_lt1 y
  show (multiReduction .add [0] S128x64 (shapeCast S32x128x64 B shapeCasts_S32x128x64_S32x128x64) 0x00000000#32
        reduces_S32x128x64_S128x64 (.inl rfl) rfl (ix1_0 y) : EReal)
      * multiReduction .add [0] S128x64 (shapeCast S32x128x64 B shapeCasts_S32x128x64_S32x128x64) 0x00000000#32
        reduces_S32x128x64_S128x64 (.inl rfl) rfl (ix1_1 y)
    = fieldSum x ⟨(i 0).val, idx2_lt0 i⟩ (major ⟨(i 1).val, idx2_lt1 i⟩)
      * fieldSum x ⟨(i 0).val, idx2_lt0 i⟩ (minor ⟨(i 1).val, idx2_lt1 i⟩)
  rw [block_field_sum B (ix1_0 y) ⟨(y 0).val, hy0⟩ ⟨(y 1).val / 64, by omega⟩ rfl rfl,
    block_field_sum B (ix1_1 y) ⟨(y 0).val, hy0⟩ ⟨(y 1).val % 64, Nat.mod_lt _ (by decide)⟩ rfl rfl]
  unfold fieldSum
  congr 1
  · refine Finset.sum_congr rfl fun k _ => ?_
    rw [hB]
    refine congrArg x ?_
    funext a
    apply Fin.ext
    match a with
    | ⟨0, _⟩ => rfl
    | ⟨1, _⟩ => show 128 * t.val + (y 0).val = (i 0).val; omega
    | ⟨2, _⟩ => rfl
    | ⟨3, _⟩ => show (y 1).val / 64 = (i 1).val / 64; rw [hi1]
  · refine Finset.sum_congr rfl fun k _ => ?_
    rw [hB]
    refine congrArg x ?_
    funext a
    apply Fin.ext
    match a with
    | ⟨0, _⟩ => rfl
    | ⟨1, _⟩ => show 128 * t.val + (y 0).val = (i 0).val; omega
    | ⟨2, _⟩ => rfl
    | ⟨3, _⟩ => show (y 1).val % 64 = (i 1).val % 64; rw [hi1]

/-! ## The blocks as parts of the arrays -/

/-- The zero offsets of the body's whole-block accesses. -/
theorem off3 : (![0, 0, 0] : Fin 3 → Nat) = fun _ => 0 := funext fun a => by fin_cases a <;> rfl

/-- Where the two windows' blocks sit at point `t`, decided over the 64 points: the input's at sample block `t`
    (whole field and coordinate axes), the output's at row block `t` (whole column axis). -/
theorem block_places : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

/-- The array the input window stages is the input with its unit axis dropped (the one host operation before the
    region). -/
theorem staged_input (c : Dev nD) :
    (V m c main_v0 : S32x8192x64.Idx → EReal)
      = shapeCast S32x8192x64 (m ((c : Thread nD τ).loc main_arg0)) shapeCasts_S32x8192x1x64_S32x8192x64 := by
  dsimp only [Gen.V, Gen.hostOps0]
  after_results
  rfl

/-- The input window's block at point `t`, at field `k`, row `r`, coordinate `d`: the input at field `k`, sample
    128·t + r, coordinate `d`. -/
theorem input_block_apply (c : Dev nD) (t : Fin cfg0.N) (k : Fin 32) (r : Fin 128) (d : Fin 64)
    (hb : 128 * t.val + r.val < 8192) :
    (iblk m c 0 t : Vec Ideal S32x128x64 .f32) (ix3 k r d)
      = (m ((c : Thread nD τ).loc main_arg0) : Fields.Idx → EReal) (entry k ⟨128 * t.val + r.val, hb⟩ d) := by
  obtain ⟨e0, e1, e2, -, -⟩ := block_places t
  unfold iblk
  rw [View.read_apply]
  show (V m c main_v0 : S32x8192x64.Idx → EReal) _ = _
  rw [staged_input]
  refine shapeCast_apply _ _ _ (entry k ⟨128 * t.val + r.val, hb⟩ d) ?_
  rw [Shape.rowMajor_val_four, Shape.rowMajor_val_three]
  show ((k.val * 8192 + (128 * t.val + r.val)) * 1 + 0) * 64 + d.val
    = ((win0_0.index t (0 : Fin 3) * 32 + 1 * k.val) * 8192 + (win0_0.index t (1 : Fin 3) * 128 + 1 * r.val)) * 64
      + (win0_0.index t (2 : Fin 3) * 64 + 1 * d.val)
  rw [e0, e1, e2]
  omega

/-! ## What a point writes back, and the array after the run -/

/-- What point `t` writes back is block `t` of the specification of the input. -/
theorem flushed_is_block (c : Dev nD) (t : Fin cfg0.N) :
    (dats m 0 c).flushed 1 t
      = ((cfg0.win 1).blk t).view.read (Elt Ideal) (outerFlat (m ((c : Thread nD τ).loc main_arg0))) := by
  have hN : t.val < 64 := Nat.lt_of_lt_of_eq t.isLt N_0
  obtain ⟨-, -, -, o0, o1⟩ := block_places t
  rw [Value.flushed1]
  unfold out0_1
  funext j
  show View.canon [(⟨r0_1, k0_pay1 (F := Ideal) (View.ld (iblk m c 0 t) r0_0)⟩ : View.Piece (Elt Ideal) S128x4096 .f32)] j
    = outerFlat (m ((c : Thread nD τ).loc main_arg0)) (((cfg0.win 1).blk t).view.emb j)
  refine (canon1_eq (F := Ideal) (View.ld (iblk m c 0 t) r0_0) j).trans ?_
  refine block_value (m ((c : Thread nD τ).loc main_arg0)) (View.ld (iblk m c 0 t) r0_0) ⟨t.val, hN⟩ ?_ j
    (((cfg0.win 1).blk t).view.emb j) ?_ ?_
  · intro k r d
    have hb : 128 * t.val + r.val < 8192 := by have := r.isLt; omega
    rw [View.ld_unit_zero (S := S32x128x64) off3]
    exact input_block_apply m c t k r d hb
  · show win0_1.index t (0 : Fin 2) * 128 + 1 * (j 0).val = 128 * t.val + (j 0).val
    rw [o0]; omega
  · show win0_1.index t (1 : Fin 2) * 4096 + 1 * (j 1).val = (j 1).val
    rw [o1]; omega

/-- Every row of the result is in the block of the point that works on its samples. -/
theorem rows_covered (i : S8192x4096.Idx) :
    ∃ t : Fin cfg0.N, (cfg0.win 1).flush t = true ∧ i ∈ ((cfg0.win 1).blk t).view.set := by
  have h0 : (i 0).val < 8192 := idx2_lt0 i
  have h1 : (i 1).val < 4096 := idx2_lt1 i
  obtain ⟨t, ht⟩ : ∃ t : Fin cfg0.N, t.val = (i 0).val / 128 :=
    ⟨⟨(i 0).val / 128, Nat.lt_of_lt_of_eq (show (i 0).val / 128 < 64 by omega) N_0.symm⟩, rfl⟩
  obtain ⟨-, -, -, o0, o1⟩ := block_places t
  refine ⟨t, flush0_1 t, ?_⟩
  show i ∈ ((View.whole main_v1).slice (win0_1.rect t)).set
  rw [View.set_slice_whole, Rect.mem_set_unit]
  intro a
  match a with
  | ⟨0, _⟩ =>
    show win0_1.index t (0 : Fin 2) * 128 ≤ (i 0).val ∧ (i 0).val < win0_1.index t (0 : Fin 2) * 128 + 128
    rw [o0, ht]; omega
  | ⟨1, _⟩ =>
    show win0_1.index t (1 : Fin 2) * 4096 ≤ (i 1).val ∧ (i 1).val < win0_1.index t (1 : Fin 2) * 4096 + 4096
    rw [o1]; omega

/-- The result array after the run is the specification of the input. -/
theorem final_array (c : Dev nD) :
    (dats m 0 c).arrAt 1 cfg0.N = outerFlat (m ((c : Thread nD τ).loc main_arg0)) :=
  (dats m 0 c).arrAt_eq_of_cover 1 (outerFlat (m ((c : Thread nD τ).loc main_arg0)))
    (fun t _ => flushed_is_block m c t) rows_covered

/-- The kernel's run: every weakly fair execution ends with the result array at the specification of the input,
    the input unchanged. -/
theorem run : θ_run defs (onTc (τ := τ) (main (F := Ideal))) ⟨m, fun _ => 0, ρ⟩ fun r => ∀ c : Dev nD,
      r.2.mem ((c : Thread nD τ).loc main_v1) = outerFlat (m ((c : Thread nD τ).loc main_arg0))
      ∧ r.2.mem ((c : Thread nD τ).loc main_arg0) = m ((c : Thread nD τ).loc main_arg0) :=
  (θ_run defs _ _).mono (fun _ h c => ⟨(h c).1.trans (final_array m c), (h c).2⟩) (Value.run_blocks m ρ)

end Cert.KernelIdeal.OuterBridge

end
-- ==== Proof.lean ====
/- The certificate of the outer-product layer: a Pallas kernel that sums 32 fields of 64-coordinate vectors per
   sample and writes, flat, the outer product of that sum with itself, against the same computation written with a
   host sum, a batched product over a unit axis and a reshape.

   Both programs run and leave their argument unchanged (the kernel's two frames are the generated ones; the
   reference's is its generated run with the result dropped). The ideal pass rewrote nothing, so the idealization
   claim is trivial. Over the extended reals both results are ONE function of the input: at sample b and flat column q
   the product of the field sum at coordinate q / 64 with the field sum at coordinate q % 64. The reference reaches
   it by reading its four operations at an index (a sum from zero is the sum; a product over a unit axis is one
   term); the kernel by reading what each of its 64 grid points writes back as a row block of that function, the
   row blocks tiling the result. No law of the extended reals beyond 0 + a = a is used, so finiteness of the input
   is never opened. -/
import proofs.«130399_j71545565217479_1_alg».proof.Defs
import proofs.«130399_j71545565217479_1_alg».proof.Proof.Gen.Kernel
import proofs.«130399_j71545565217479_1_alg».proof.Proof.Gen.Kernel.Skeleton
import proofs.«130399_j71545565217479_1_alg».proof.Proof.Gen.Kernel.Launch
import proofs.«130399_j71545565217479_1_alg».proof.Proof.Gen.Kernel.Points
import proofs.«130399_j71545565217479_1_alg».proof.Proof.Gen.Kernel.Frame
import proofs.«130399_j71545565217479_1_alg».proof.Proof.Gen.KernelIdeal
import proofs.«130399_j71545565217479_1_alg».proof.Proof.Gen.KernelIdeal.Skeleton
import proofs.«130399_j71545565217479_1_alg».proof.Proof.Gen.KernelIdeal.Launch
import proofs.«130399_j71545565217479_1_alg».proof.Proof.Gen.KernelIdeal.Points
import proofs.«130399_j71545565217479_1_alg».proof.Proof.Gen.KernelIdeal.Frame
import proofs.«130399_j71545565217479_1_alg».proof.Proof.Gen.ReferenceIdeal
import proofs.«130399_j71545565217479_1_alg».proof.Proof.Gen.Pre_finite_inputs
import proofs.«130399_j71545565217479_1_alg».proof.Proof.Gen.KernelIdeal.Value
import proofs.«130399_j71545565217479_1_alg».proof.Proof.Gen.ReferenceIdeal.Run
import proofs.«130399_j71545565217479_1_alg».proof.Proof.Gen.ReferenceIdeal.Read
import proofs.«130399_j71545565217479_1_alg».proof.Proof.OuterSpec
import proofs.«130399_j71545565217479_1_alg».proof.Proof.RefOuter
import proofs.«130399_j71545565217479_1_alg».proof.Proof.KernelOuter
import Idealize.ShloMosaic.Adequacy
import Idealize.ShloMosaic.Init

noncomputable section

namespace Cert.Proof

open Idealize.ShloMosaic Idealize.SL.Sem Cert.Kernel

/-- The reference runs and leaves its argument unchanged: its generated run, the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories agreeing on the input, both idealized programs end with the flattened outer product of the
    input's field sums in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.OuterProduct.outerFlat (m ((c.tc : Thread Cert.KernelIdeal.nD Cert.KernelIdeal.τ).loc Cert.KernelIdeal.main_arg0)),
    Cert.KernelIdeal.OuterBridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.OuterBridge.result_is_outer, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
